-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S4096 : Shape := ⟨1, ![4096]⟩
abbrev S2048x1024 : Shape := ⟨2, ![2048, 1024]⟩
abbrev S2048 : Shape := ⟨1, ![2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S4096 .f32) (main_arg8 : FVec F S2048x1024 .f32) (main_arg9 : FVec F S2048 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S2048x1024 .f32 := Host.absf main_arg8
  let main_cst_14 : FVec F S_ .f32 := constant S_ .f32 0x7F800000#32
  let main_v40 : FVec F S2048x1024 .f32 := broadcastInDim S2048x1024 ![] bcast_S_S2048x1024 main_cst_14
  let main_v41 : IVec S2048x1024 1 := cmpf .olt main_v39 main_v40
  let main_c_15 : IVec S_ 1 := constantI S_ 1 1#1
  let main_v42 : IVec S_ 1 := (fun x v => Host.reduce IntOp.andi x v reducesTo_S2048x1024_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  main_v48

def fn_part1 {F : FTy → Type} [FloatOps F] (main_arg4 : FVec F S4096x1024 .f32) (main_arg5 : FVec F S4096x1024 .f32) (main_arg6 : FVec F S4096 .f32) (main_arg7 : FVec F S4096 .f32) (main_arg8 : FVec F S2048x1024 .f32) (main_arg9 : FVec F S2048 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S4096x1024 .f32) (main_arg5 : FVec F S4096x1024 .f32) (main_arg6 : FVec F S4096 .f32) (main_arg7 : FVec F S4096 .f32) (main_arg8 : FVec F S2048x1024 .f32) (main_arg9 : FVec F S2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_arg8 main_arg9 main_v13 main_v16
-- ==== Kernel.lean ====
abbrev S8192x1024 : Shape := ⟨2, ![8192, 1024]⟩
abbrev S4096x1024 : Shape := ⟨2, ![4096, 1024]⟩
abbrev S4096 : Shape := ⟨1, ![4096]⟩
abbrev S2048x1024 : Shape := ⟨2, ![2048, 1024]⟩
abbrev S2048 : Shape := ⟨1, ![2048]⟩
abbrev S4x1024x1024 : Shape := ⟨3, ![4, 1024, 1024]⟩
abbrev S2x1024x1024 : Shape := ⟨3, ![2, 1024, 1024]⟩
abbrev S4x1024 : Shape := ⟨2, ![4, 1024]⟩
abbrev S2x1024 : Shape := ⟨2, ![2, 1024]⟩
abbrev S256x1024 : Shape := ⟨2, ![256, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 24
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S4096x1024, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S2048x1024, .f32⟩
  | .hbm, ⟨9, _⟩ => ⟨S2048, .f32⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S4x1024x1024, .f32⟩
  | .hbm, ⟨14, _⟩ => ⟨S4x1024x1024, .bf16⟩
  | .hbm, ⟨15, _⟩ => ⟨S4x1024x1024, .f32⟩
  | .hbm, ⟨16, _⟩ => ⟨S4x1024x1024, .bf16⟩
  | .hbm, ⟨17, _⟩ => ⟨S2x1024x1024, .f32⟩
  | .hbm, ⟨18, _⟩ => ⟨S2x1024x1024, .bf16⟩
  | .hbm, ⟨19, _⟩ => ⟨S4x1024, .f32⟩
  | .hbm, ⟨20, _⟩ => ⟨S4x1024, .f32⟩
  | .hbm, ⟨21, _⟩ => ⟨S2x1024, .f32⟩
  | .hbm, ⟨22, _⟩ => ⟨S8192x1024, .f32⟩
  | .hbm, ⟨23, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S4x1024x1024, .bf16⟩
  | .local _ .vmem, ⟨9, _⟩ => ⟨S4x1024x1024, .bf16⟩
  | .local _ .vmem, ⟨10, _⟩ => ⟨S2x1024x1024, .bf16⟩
  | .local _ .vmem, ⟨11, _⟩ => ⟨S4x1024, .f32⟩
  | .local _ .vmem, ⟨12, _⟩ => ⟨S4x1024, .f32⟩
  | .local _ .vmem, ⟨13, _⟩ => ⟨S2x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  shapeCasts_S4096x1024_S4x1024x1024 : S4096x1024.ShapeCasts S4x1024x1024
  shapeCasts_S2048x1024_S2x1024x1024 : S2048x1024.ShapeCasts S2x1024x1024
  shapeCasts_S4096_S4x1024 : S4096.ShapeCasts S4x1024
  shapeCasts_S2048_S2x1024 : S2048.ShapeCasts S2x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  transposes_S1024x1024_p1_0_S1024x1024 : S1024x1024.Transposes [1, 0] S1024x1024
  shapeCasts_S1024_S1x1024 : S1024.ShapeCasts S1x1024
  broadcasts_S1x1024_S256x1024 : S1x1024.Broadcasts S256x1024
  inb_S4x1024x1024_S1x1024x1024_2_0_0 : ∀ a, (![2, 0, 0] : Fin 3 → Nat) a + S1x1024x1024.size a ≤ S4x1024x1024.size a
  inb_S4x1024_S1x1024_2_0 : ∀ a, (![2, 0] : Fin 2 → Nat) a + S1x1024.size a ≤ S4x1024.size a
  inb_S4x1024x1024_S1x1024x1024_1_0_0 : ∀ a, (![1, 0, 0] : Fin 3 → Nat) a + S1x1024x1024.size a ≤ S4x1024x1024.size a
  inb_S4x1024_S1x1024_1_0 : ∀ a, (![1, 0] : Fin 2 → Nat) a + S1x1024.size a ≤ S4x1024.size a
  inb_S2x1024x1024_S1x1024x1024_0_0_0 : ∀ a, (![0, 0, 0] : Fin 3 → Nat) a + S1x1024x1024.size a ≤ S2x1024x1024.size a
  inb_S2x1024_S1x1024_0_0 : ∀ a, (![0, 0] : Fin 2 → Nat) a + S1x1024.size a ≤ S2x1024.size a
  inb_S2x1024x1024_S1x1024x1024_1_0_0 : ∀ a, (![1, 0, 0] : Fin 3 → Nat) a + S1x1024x1024.size a ≤ S2x1024x1024.size a
  inb_S2x1024_S1x1024_1_0 : ∀ a, (![1, 0] : Fin 2 → Nat) a + S1x1024.size a ≤ S2x1024.size a
  inb_S4x1024x1024_S1x1024x1024_3_0_0 : ∀ a, (![3, 0, 0] : Fin 3 → Nat) a + S1x1024x1024.size a ≤ S4x1024x1024.size a
  inb_S4x1024_S1x1024_3_0 : ∀ a, (![3, 0] : Fin 2 → Nat) a + S1x1024.size a ≤ S4x1024.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .bf16 = 32 ∨ (Rect.block (s := S8192x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .bf16 = 32 ∨ (Rect.block (s := S8192x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .bf16 = 32 ∨ (Rect.block (s := S8192x1024) S256x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x1024.size a
  hwx0_3 : ∀ i : grid0.Coords, EltTy.bits .f32 = 32 ∨ (Rect.block (s := S8192x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1024x1024.size a ≤ S4x1024x1024.size a
  hwx0_4 : ∀ i : grid0.Coords, EltTy.bits .bf16 = 32 ∨ (Rect.block (s := S4x1024x1024) S4x1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1024x1024.size a ≤ S4x1024x1024.size a
  hwx0_5 : ∀ i : grid0.Coords, EltTy.bits .bf16 = 32 ∨ (Rect.block (s := S4x1024x1024) S4x1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x1024x1024.size a ≤ S2x1024x1024.size a
  hwx0_6 : ∀ i : grid0.Coords, EltTy.bits .bf16 = 32 ∨ (Rect.block (s := S2x1024x1024) S2x1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x1024.size a ≤ S4x1024.size a
  hwx0_7 : ∀ i : grid0.Coords, EltTy.bits .f32 = 32 ∨ (Rect.block (s := S4x1024) S4x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x1024.size a ≤ S4x1024.size a
  hwx0_8 : ∀ i : grid0.Coords, EltTy.bits .f32 = 32 ∨ (Rect.block (s := S4x1024) S4x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x1024.size a ≤ S2x1024.size a
  hwx0_9 : ∀ i : grid0.Coords, EltTy.bits .f32 = 32 ∨ (Rect.block (s := S2x1024) S2x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S8192x1024.size a
  hwx0_10 : ∀ i : grid0.Coords, EltTy.bits .f32 = 32 ∨ (Rect.block (s := S8192x1024) S256x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S8192x1024.size a
  hwx0_11 : ∀ i : grid0.Coords, EltTy.bits .f32 = 32 ∨ (Rect.block (s := S8192x1024) S256x1024.size (cc0_transform_11 i) (hinb0_11 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4x1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4x1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S2x1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S4x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S4x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S2x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12_0) S256x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v12_1) S256x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S2048x1024 : Shape := ⟨2, ![2048, 1024]⟩
abbrev S2048 : Shape := ⟨1, ![2048]⟩
abbrev S1024x4096 : Shape := ⟨2, ![1024, 4096]⟩
abbrev S8192x4096 : Shape := ⟨2, ![8192, 4096]⟩
abbrev S1x4096 : Shape := ⟨2, ![1, 4096]⟩
abbrev S1024x2048 : Shape := ⟨2, ![1024, 2048]⟩
abbrev S8192x2048 : Shape := ⟨2, ![8192, 2048]⟩
abbrev S1x2048 : Shape := ⟨2, ![1, 2048]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S4096x1024, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S2048x1024, .f32⟩
  | .hbm, ⟨9, _⟩ => ⟨S2048, .f32⟩
  | .hbm, ⟨10, _⟩ => ⟨S1024x4096, .f32⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S1024x4096, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S1024x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  transposes_S2048x1024_S1024x2048_1_0 : S2048x1024.Transposes [1, 0] S1024x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  slices_S8192x2048_S8192x1024_0_0 : S8192x2048.Slices ![0, 0] S8192x1024
  slices_S8192x2048_S8192x1024_0_1024 : S8192x2048.Slices ![0, 1024] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []
  dot_S8192x1024_S1024x2048_S8192x2048_1_0_0_1_n_n_wf : DotDims.WF S8192x1024 S1024x2048 S8192x2048 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf

class Facts : Prop extends Facts₀ where

variable [Facts]
-- ==== Proof.Cell.lean ====
/-
  One step of an LSTM cell with an attention gate, over the extended reals.

  For a batch row r and a hidden unit j, each of the four gates (input, forget, cell, output) has the pre-activation
      x_r · Wih[1024 g + j] + h_r · Whh[1024 g + j] + bih[1024 g + j] + bhh[1024 g + j],        g = 0, 1, 2, 3,
  the row 1024 g + j of the stacked [4096, 1024] weights being row j of gate g's [1024, 1024] block, and each of the two
  attention gates has  a_r · Watt[1024 g + j] + batt[1024 g + j],  g = 0, 1.  With σ the logistic function,
      cy = σ(in) · tanh(cell) + σ(forget) · cx + σ(att_in) · tanh(att),        hy = σ(out) · tanh(cy).
  The two programs compared add the four terms of a gate, and the three products of cy, in different orders; on the
  extended reals addition is commutative and associative (also at the infinities), which is all that is used here.
-/
import Idealize.ShloMosaic.PureOps.Ideal
import Idealize.ShloMosaic.Lib.ValueIdx

open scoped BigOperators

noncomputable section

namespace Cert.AttLstm

open Idealize.ShloMosaic Idealize.ShloMosaic.ValueIdx

/-! ## One entry -/

/-- A gate's pre-activation from a row of the input, a row of the hidden state, the gate's two weight rows and its
    two biases: the two inner products first, then the biases. -/
def gatePre (xr hr wi wh : Fin 1024 → EReal) (bi bh : EReal) : EReal :=
  (∑ k : Fin 1024, xr k * wi k + ∑ k : Fin 1024, hr k * wh k) + bi + bh

/-- The same four terms with the first bias added before the second inner product. -/
theorem gatePre_of_bias_first (xr hr wi wh : Fin 1024 → EReal) (bi bh : EReal) :
    (∑ k : Fin 1024, xr k * wi k + bi) + ∑ k : Fin 1024, hr k * wh k + bh = gatePre xr hr wi wh bi bh := by
  unfold gatePre
  rw [add_right_comm (∑ k : Fin 1024, xr k * wi k) bi]

/-- An attention gate's pre-activation: one inner product and one bias. -/
def attPre (ar w : Fin 1024 → EReal) (b : EReal) : EReal :=
  ∑ k : Fin 1024, ar k * w k + b

/-- The next cell state from the pre-activations of the input, forget and cell gates, of the two attention gates, and
    the old cell state. -/
def cellNext (gi gf gc ai ac cx : EReal) : EReal :=
  Ideal.logistic gi * Ideal.tanh gc + Ideal.logistic gf * cx + Ideal.logistic ai * Ideal.tanh ac

/-- The same three products with the forget term first. -/
theorem cellNext_of_forget_first (gi gf gc ai ac cx : EReal) :
    Ideal.logistic gf * cx + Ideal.logistic gi * Ideal.tanh gc + Ideal.logistic ai * Ideal.tanh ac
      = cellNext gi gf gc ai ac cx := by
  unfold cellNext
  rw [add_comm (Ideal.logistic gf * cx)]

/-- The next hidden state from the output gate's pre-activation and the next cell state. -/
def hiddenNext (go cy : EReal) : EReal :=
  Ideal.logistic go * Ideal.tanh cy

/-! ## The arrays -/

/-- batch × features (input, hidden, cell and attention states all have 1024 features) -/
abbrev SAct : Shape := ⟨2, ![8192, 1024]⟩
/-- the four gates' weights stacked: 4 · 1024 rows -/
abbrev SW4 : Shape := ⟨2, ![4096, 1024]⟩
abbrev SB4 : Shape := ⟨1, ![4096]⟩
/-- the two attention gates' weights stacked: 2 · 1024 rows -/
abbrev SW2 : Shape := ⟨2, ![2048, 1024]⟩
abbrev SB2 : Shape := ⟨1, ![2048]⟩

/-- Row `1024 g + j` of the four stacked gates: unit `j` of gate `g`. -/
def row4 (g : Nat) (hg : g < 4) (j : Fin 1024) : Fin 4096 := ⟨g * 1024 + j.val, by have := j.isLt; omega⟩
/-- Row `1024 g + j` of the two stacked attention gates. -/
def row2 (g : Nat) (hg : g < 2) (j : Fin 1024) : Fin 2048 := ⟨g * 1024 + j.val, by have := j.isLt; omega⟩

variable (X H CX A : FVec Ideal SAct .f32) (Wih Whh : FVec Ideal SW4 .f32) (bih bhh : FVec Ideal SB4 .f32)
  (Watt : FVec Ideal SW2 .f32) (batt : FVec Ideal SB2 .f32)

/-- The pre-activation of gate `g` at batch row `r` and unit `j`. -/
def gateAt (g : Nat) (hg : g < 4) (r : Fin 8192) (j : Fin 1024) : EReal :=
  gatePre (fun k => X (ix2 r k)) (fun k => H (ix2 r k))
    (fun k => Wih (ix2 (row4 g hg j) k)) (fun k => Whh (ix2 (row4 g hg j) k))
    (bih (ix1 (row4 g hg j))) (bhh (ix1 (row4 g hg j)))

/-- The pre-activation of attention gate `g`. -/
def attAt (g : Nat) (hg : g < 2) (r : Fin 8192) (j : Fin 1024) : EReal :=
  attPre (fun k => A (ix2 r k)) (fun k => Watt (ix2 (row2 g hg j) k)) (batt (ix1 (row2 g hg j)))

/-- The next cell state at (r, j): the input gate is gate 0, the forget gate 1, the cell gate 2. -/
def cyAt (r : Fin 8192) (j : Fin 1024) : EReal :=
  cellNext (gateAt X H Wih Whh bih bhh 0 (by omega) r j) (gateAt X H Wih Whh bih bhh 1 (by omega) r j)
    (gateAt X H Wih Whh bih bhh 2 (by omega) r j)
    (attAt A Watt batt 0 (by omega) r j) (attAt A Watt batt 1 (by omega) r j) (CX (ix2 r j))

/-- The next hidden state at (r, j): the output gate is gate 3. -/
def hyAt (r : Fin 8192) (j : Fin 1024) : EReal :=
  hiddenNext (gateAt X H Wih Whh bih bhh 3 (by omega) r j) (cyAt X H CX A Wih Whh bih bhh Watt batt r j)

/-- The next cell state as one array. -/
def cyArr : FVec Ideal SAct .f32 := fun i => cyAt X H CX A Wih Whh bih bhh Watt batt (i 0) (i 1)

/-- The next hidden state as one array. -/
def hyArr : FVec Ideal SAct .f32 := fun i => hyAt X H CX A Wih Whh bih bhh Watt batt (i 0) (i 1)

end Cert.AttLstm

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.KernelBlock.lean ====
/-
  What the kernel's body leaves in its two output blocks, entry by entry.

  A grid point holds 256 batch rows. The body reads the point's rows of the input, the hidden state, the attention state
  and the cell state, and the WHOLE stacked weights and biases, which it holds as [4, 1024, 1024] / [4, 1024] (the four
  gates) and [2, 1024, 1024] / [2, 1024] (the two attention gates): gate g's weights are the slab g, its biases the row g.
  For each gate it multiplies the rows by the TRANSPOSED slab — so entry (p, q) is the inner product of row p of the
  operand and row q of the slab — and adds the two biases, broadcast along the rows. Entry (p, q) of the block of the
  next cell state is therefore `cellNext` of the gates' pre-activations at (p, q), and of the next hidden state
  `hiddenNext`, over the slabs' rows q.
-/
import proofs.«148934_j32744830664921_1_alg».proof.Proof.Gen.KernelIdeal.Frame
import proofs.«148934_j32744830664921_1_alg».proof.Proof.Cell
import proofs.«148934_j32744830664921_1_alg».proof.Proof.LibPlainMatmul
import Idealize.ShloMosaic.Lib.ValueLayout
import Idealize.ShloMosaic.Lib.Pipeline.Value

open scoped BigOperators

noncomputable section

namespace Cert.KernelIdeal.Block

open Cert.KernelIdeal Cert.KernelIdeal.Gen Idealize.ShloMosaic Idealize.ShloMosaic.ValueIdx Cert.AttLstm

/-! ## Layout: loads of one slab or one row, and the operations between a load and the arithmetic -/

theorem zero2 : (![0, 0] : Fin 2 → Nat) = fun _ => 0 := funext fun a => by fin_cases a <;> rfl

/-- Slab `g` of the four stacked weight blocks, loaded as [1, 1024, 1024]: at (u, i, j) it is the stack at (g, i, j). -/
theorem ld_slab4 (x : Vec Ideal S4x1024x1024 .bf16) (g : Nat) (hg : g < 4)
    (inb : ∀ a, (![g, 0, 0] : Fin 3 → Nat) a + S1x1024x1024.size a ≤ S4x1024x1024.size a) :
    View.ld (Val := Elt Ideal) x (Rect.unit (s := S4x1024x1024) ![g, 0, 0] S1x1024x1024.size inb)
      = fun y : S1x1024x1024.Idx => x (ix3 (⟨g, hg⟩ : Fin 4) (y 1) (y 2)) := by
  funext y
  show x _ = x _
  congr 1; funext a; apply Fin.ext
  match a with
  | ⟨0, _⟩ => show g + 1 * (y 0).val = g; have : (y 0).val < 1 := (y 0).isLt; omega
  | ⟨1, _⟩ => show 0 + 1 * (y 1).val = (y 1).val; omega
  | ⟨2, _⟩ => show 0 + 1 * (y 2).val = (y 2).val; omega

/-- Slab `g` of the two stacked attention weight blocks. -/
theorem ld_slab2 (x : Vec Ideal S2x1024x1024 .bf16) (g : Nat) (hg : g < 2)
    (inb : ∀ a, (![g, 0, 0] : Fin 3 → Nat) a + S1x1024x1024.size a ≤ S2x1024x1024.size a) :
    View.ld (Val := Elt Ideal) x (Rect.unit (s := S2x1024x1024) ![g, 0, 0] S1x1024x1024.size inb)
      = fun y : S1x1024x1024.Idx => x (ix3 (⟨g, hg⟩ : Fin 2) (y 1) (y 2)) := by
  funext y
  show x _ = x _
  congr 1; funext a; apply Fin.ext
  match a with
  | ⟨0, _⟩ => show g + 1 * (y 0).val = g; have : (y 0).val < 1 := (y 0).isLt; omega
  | ⟨1, _⟩ => show 0 + 1 * (y 1).val = (y 1).val; omega
  | ⟨2, _⟩ => show 0 + 1 * (y 2).val = (y 2).val; omega

/-- Row `g` of the four stacked biases, loaded as [1, 1024]. -/
theorem ld_row4 (x : Vec Ideal S4x1024 .f32) (g : Nat) (hg : g < 4)
    (inb : ∀ a, (![g, 0] : Fin 2 → Nat) a + S1x1024.size a ≤ S4x1024.size a) :
    View.ld (Val := Elt Ideal) x (Rect.unit (s := S4x1024) ![g, 0] S1x1024.size inb)
      = fun y : S1x1024.Idx => x (ix2 (⟨g, hg⟩ : Fin 4) (y 1)) := by
  funext y
  show x _ = x _
  congr 1; funext a; apply Fin.ext
  match a with
  | ⟨0, _⟩ => show g + 1 * (y 0).val = g; have : (y 0).val < 1 := (y 0).isLt; omega
  | ⟨1, _⟩ => show 0 + 1 * (y 1).val = (y 1).val; omega

/-- Row `g` of the two stacked attention biases. -/
theorem ld_row2 (x : Vec Ideal S2x1024 .f32) (g : Nat) (hg : g < 2)
    (inb : ∀ a, (![g, 0] : Fin 2 → Nat) a + S1x1024.size a ≤ S2x1024.size a) :
    View.ld (Val := Elt Ideal) x (Rect.unit (s := S2x1024) ![g, 0] S1x1024.size inb)
      = fun y : S1x1024.Idx => x (ix2 (⟨g, hg⟩ : Fin 2) (y 1)) := by
  funext y
  show x _ = x _
  congr 1; funext a; apply Fin.ext
  match a with
  | ⟨0, _⟩ => show g + 1 * (y 0).val = g; have : (y 0).val < 1 := (y 0).isLt; omega
  | ⟨1, _⟩ => show 0 + 1 * (y 1).val = (y 1).val; omega

/-- Rows times a transposed square matrix, into the zero accumulator: entry (p, q) is the inner product of row p of the
    left operand and ROW q of the matrix before the transpose. -/
theorem matT_apply (v : FVec Ideal S256x1024 .bf16) (w : FVec Ideal S1024x1024 .bf16)
    (hT : S1024x1024.Transposes [1, 0] S1024x1024) (p : Fin 256) (q : Fin 1024) :
    matmul dot_S256x1024_S1024x1024_S256x1024_1_0_0_1_n_n none v (transpose S1024x1024 [1, 0] w hT)
        (constant S256x1024 .f32 0x00000000#32) (ix2 p q)
      = ∑ k : Fin 1024, v (ix2 p k) * w (ix2 q k) := by
  rw [PlainMatmul.matmul_zero_apply dot_S256x1024_S1024x1024_S256x1024_1_0_0_1_n_n
    dot_S256x1024_S1024x1024_S256x1024_1_0_0_1_n_n.wf rfl]
  exact Finset.sum_congr rfl fun k _ => by rw [transpose_ix2_apply]

/-- A bias vector given a unit row axis and broadcast along the 256 rows: entry (p, q) is the bias at q. -/
theorem bias_apply (b : FVec Ideal S1024 .f32) (hS : S1024.ShapeCasts S1x1024) (hB : S1x1024.Broadcasts S256x1024)
    (p : Fin 256) (q : Fin 1024) :
    broadcastTo S256x1024 (shapeCast S1x1024 b hS) hB (ix2 p q) = b (ix1 q) := by
  rw [broadcastTo_1b_ab_apply, shapeCast_a_1a_apply]

theorem logistic_apply (v : FVec Ideal S256x1024 .f32) (i : S256x1024.Idx) : logistic v i = Ideal.logistic (v i) := rfl
theorem tanh_apply (v : FVec Ideal S256x1024 .f32) (i : S256x1024.Idx) : tanh v i = Ideal.tanh (v i) := rfl

/-- A gate's pre-activation as the body computes it, at entry (p, q), from the operands' rows p, the two slabs' rows q
    and the two bias rows at q. -/
theorem gate_apply (v1 v3 : FVec Ideal S256x1024 .bf16) (s1 s2 : FVec Ideal S1x1024x1024 .bf16) (b1 b2 : FVec Ideal S1x1024 .f32)
    (hC : S1x1024x1024.ShapeCasts S1024x1024) (hT : S1024x1024.Transposes [1, 0] S1024x1024)
    (hR : S1x1024.ShapeCasts S1024) (hS : S1024.ShapeCasts S1x1024) (hB : S1x1024.Broadcasts S256x1024)
    (p : Fin 256) (q : Fin 1024) :
    addf (addf (addf
        (matmul dot_S256x1024_S1024x1024_S256x1024_1_0_0_1_n_n none v1 (transpose S1024x1024 [1, 0] (shapeCast S1024x1024 s1 hC) hT) (constant S256x1024 .f32 0x00000000#32))
        (matmul dot_S256x1024_S1024x1024_S256x1024_1_0_0_1_n_n none v3 (transpose S1024x1024 [1, 0] (shapeCast S1024x1024 s2 hC) hT) (constant S256x1024 .f32 0x00000000#32)))
        (broadcastTo S256x1024 (shapeCast S1x1024 (shapeCast S1024 b1 hR) hS) hB))
        (broadcastTo S256x1024 (shapeCast S1x1024 (shapeCast S1024 b2 hR) hS) hB) (ix2 p q)
      = gatePre (fun k => v1 (ix2 p k)) (fun k => v3 (ix2 p k))
          (fun k => s1 (ix3 (0 : Fin 1) q k)) (fun k => s2 (ix3 (0 : Fin 1) q k))
          (b1 (ix2 (0 : Fin 1) q)) (b2 (ix2 (0 : Fin 1) q)) := by
  simp only [addf_apply, bias_apply, shapeCast_1a_a_apply]
  rw [matT_apply, matT_apply]
  simp only [shapeCast_1ab_ab_apply]
  rfl

/-- An attention gate's pre-activation as the body computes it: one product with a transposed slab and one bias. -/
theorem att_apply (v5 : FVec Ideal S256x1024 .bf16) (s : FVec Ideal S1x1024x1024 .bf16) (b : FVec Ideal S1x1024 .f32)
    (hC : S1x1024x1024.ShapeCasts S1024x1024) (hT : S1024x1024.Transposes [1, 0] S1024x1024)
    (hR : S1x1024.ShapeCasts S1024) (hS : S1024.ShapeCasts S1x1024) (hB : S1x1024.Broadcasts S256x1024)
    (p : Fin 256) (q : Fin 1024) :
    addf (matmul dot_S256x1024_S1024x1024_S256x1024_1_0_0_1_n_n none v5 (transpose S1024x1024 [1, 0] (shapeCast S1024x1024 s hC) hT) (constant S256x1024 .f32 0x00000000#32))
        (broadcastTo S256x1024 (shapeCast S1x1024 (shapeCast S1024 b hR) hS) hB) (ix2 p q)
      = attPre (fun k => v5 (ix2 p k)) (fun k => s (ix3 (0 : Fin 1) q k)) (b (ix2 (0 : Fin 1) q)) := by
  simp only [addf_apply, bias_apply, shapeCast_1a_a_apply]
  rw [matT_apply]
  simp only [shapeCast_1ab_ab_apply]
  rfl

/-! ## The two output blocks at an entry -/

section Block

variable (x0 x1 x2 : Vec Ideal S256x1024 .bf16) (x3 : Vec Ideal S256x1024 .f32)
  (x4 x5 : Vec Ideal S4x1024x1024 .bf16) (x6 : Vec Ideal S2x1024x1024 .bf16)
  (x7 x8 : Vec Ideal S4x1024 .f32) (x9 : Vec Ideal S2x1024 .f32)

/-- Gate `g`'s pre-activation at entry (p, q) of a point's block: rows p of the point's input and hidden rows, row q
    of slab g of each weight stack, entry q of row g of each bias stack. -/
def gateB (g : Nat) (hg : g < 4) (p : Fin 256) (q : Fin 1024) : EReal :=
  gatePre (fun k => x0 (ix2 p k)) (fun k => x1 (ix2 p k))
    (fun k => x4 (ix3 (⟨g, hg⟩ : Fin 4) q k)) (fun k => x5 (ix3 (⟨g, hg⟩ : Fin 4) q k))
    (x7 (ix2 (⟨g, hg⟩ : Fin 4) q)) (x8 (ix2 (⟨g, hg⟩ : Fin 4) q))

/-- Attention gate `g`'s pre-activation at entry (p, q). -/
def attB (g : Nat) (hg : g < 2) (p : Fin 256) (q : Fin 1024) : EReal :=
  attPre (fun k => x2 (ix2 p k)) (fun k => x6 (ix3 (⟨g, hg⟩ : Fin 2) q k)) (x9 (ix2 (⟨g, hg⟩ : Fin 2) q))

/-- The next cell state at entry (p, q) of the block. -/
def cyB (p : Fin 256) (q : Fin 1024) : EReal :=
  cellNext (gateB x0 x1 x4 x5 x7 x8 0 (by omega) p q) (gateB x0 x1 x4 x5 x7 x8 1 (by omega) p q)
    (gateB x0 x1 x4 x5 x7 x8 2 (by omega) p q)
    (attB x2 x6 x9 0 (by omega) p q) (attB x2 x6 x9 1 (by omega) p q) (x3 (ix2 p q))

/-- The next hidden state at entry (p, q) of the block. -/
def hyB (p : Fin 256) (q : Fin 1024) : EReal :=
  hiddenNext (gateB x0 x1 x4 x5 x7 x8 3 (by omega) p q) (cyB x0 x1 x2 x3 x4 x5 x6 x7 x8 x9 p q)

/-- The block the body stores for the next cell state. -/
theorem out11_apply (p : Fin 256) (q : Fin 1024) :
    out0_11 (F := Ideal) x0 x1 x2 x3 x4 x5 x6 x7 x8 x9 (ix2 p q) = cyB x0 x1 x2 x3 x4 x5 x6 x7 x8 x9 p q := by
  unfold out0_11
  rw [View.canon_unit_zero zero2]
  simp only [View.ld_unit_zero (S := S256x1024) zero2]
  rw [ld_slab4 x4 0 (by omega), ld_slab4 x5 0 (by omega), ld_slab4 x4 1 (by omega), ld_slab4 x5 1 (by omega),
    ld_slab4 x4 2 (by omega), ld_slab4 x5 2 (by omega), ld_row4 x7 0 (by omega), ld_row4 x8 0 (by omega),
    ld_row4 x7 1 (by omega), ld_row4 x8 1 (by omega), ld_row4 x7 2 (by omega), ld_row4 x8 2 (by omega),
    ld_slab2 x6 0 (by omega), ld_slab2 x6 1 (by omega), ld_row2 x9 0 (by omega), ld_row2 x9 1 (by omega)]
  unfold k0_pay10 k0_pay8 k0_pay5 k0_pay9 k0_pay7 k0_pay6 k0_pay4 k0_pay3 k0_pay2
  simp only [shapeCast_self, addf_apply, mulf_apply, logistic_apply, tanh_apply, bias_apply, shapeCast_1a_a_apply]
  repeat rw [matT_apply]
  simp only [shapeCast_1ab_ab_apply]
  rfl

/-- The block the body stores for the next hidden state. -/
theorem out10_apply (p : Fin 256) (q : Fin 1024) :
    out0_10 (F := Ideal) x0 x1 x2 x3 x4 x5 x6 x7 x8 x9 (ix2 p q) = hyB x0 x1 x2 x3 x4 x5 x6 x7 x8 x9 p q := by
  unfold out0_10
  rw [View.canon_unit_zero zero2]
  simp only [View.ld_unit_zero (S := S256x1024) zero2]
  rw [ld_slab4 x4 0 (by omega), ld_slab4 x5 0 (by omega), ld_slab4 x4 1 (by omega), ld_slab4 x5 1 (by omega),
    ld_slab4 x4 2 (by omega), ld_slab4 x5 2 (by omega), ld_slab4 x4 3 (by omega), ld_slab4 x5 3 (by omega),
    ld_row4 x7 0 (by omega), ld_row4 x8 0 (by omega), ld_row4 x7 1 (by omega), ld_row4 x8 1 (by omega),
    ld_row4 x7 2 (by omega), ld_row4 x8 2 (by omega), ld_row4 x7 3 (by omega), ld_row4 x8 3 (by omega),
    ld_slab2 x6 0 (by omega), ld_slab2 x6 1 (by omega), ld_row2 x9 0 (by omega), ld_row2 x9 1 (by omega)]
  unfold k0_pay1 k0_pay11 k0_pay10 k0_pay8 k0_pay5 k0_pay9 k0_pay7 k0_pay6 k0_pay4 k0_pay3 k0_pay2
  simp only [shapeCast_self, addf_apply, mulf_apply, logistic_apply, tanh_apply, bias_apply, shapeCast_1a_a_apply]
  repeat rw [matT_apply]
  simp only [shapeCast_1ab_ab_apply]
  rfl

end Block

end Cert.KernelIdeal.Block

end
-- ==== Proof.KernelValue.lean ====
/-
  From the blocks to the arrays: after the kernel's run the two result arrays are `hyArr` and `cyArr` of the arguments.

  Before the call the program only re-lays its arguments: the activations are passed on as they are (a change of float
  format is the identity on the extended reals), a stacked [4096, 1024] weight becomes [4, 1024, 1024] — entry (g, q, k)
  is row 1024 g + q, column k — and a stacked bias [4096] becomes [4, 1024]; the same with 2 for the attention gates.
  Grid point t holds the batch rows 256 t … 256 t + 255 of the activations and the WHOLE weights and biases, so entry
  (p, q) of the block it writes back is the cell's value at batch row 256 t + p and unit q; the 32 blocks tile the arrays.
-/
import proofs.«148934_j32744830664921_1_alg».proof.Proof.Gen.KernelIdeal.Value
import proofs.«148934_j32744830664921_1_alg».proof.Proof.KernelBlock
import Idealize.ShloMosaic.Lib.StableHlo.Run
import Idealize.ShloMosaic.Lib.ValueLayout

open scoped BigOperators

noncomputable section

namespace Cert.KernelIdeal.Arrays

open Cert.KernelIdeal Cert.KernelIdeal.Gen Cert.KernelIdeal.Block Idealize.ShloMosaic Idealize.ShloMosaic.TcCoe
  Idealize.SL.Sem Idealize.ShloMosaic.ValueIdx Cert.AttLstm
open Idealize.ShloMosaic.Pipeline (Dat)

/-! ## A block's entry against the arrays, over any blocks and arrays that agree row by row -/

section Rows

variable (x0 x1 x2 : Vec Ideal S256x1024 .bf16) (x3 : Vec Ideal S256x1024 .f32)
  (x4 x5 : Vec Ideal S4x1024x1024 .bf16) (x6 : Vec Ideal S2x1024x1024 .bf16)
  (x7 x8 : Vec Ideal S4x1024 .f32) (x9 : Vec Ideal S2x1024 .f32)
  (X H CX A : FVec Ideal SAct .f32) (Wih Whh : FVec Ideal SW4 .f32) (bih bhh : FVec Ideal SB4 .f32)
  (Watt : FVec Ideal SW2 .f32) (batt : FVec Ideal SB2 .f32)
  (r : Fin 8192) (p : Fin 256)

/-- If row p of the block's activations is batch row r of the arrays, and slab g, row q of the block's weights is row
    1024 g + q of the stacked arrays, the block's entry (p, q) is the arrays' value at (r, q): the next cell state. -/
theorem cyB_eq_cyAt
    (h0 : ∀ k : Fin 1024, x0 (ix2 p k) = X (ix2 r k)) (h1 : ∀ k : Fin 1024, x1 (ix2 p k) = H (ix2 r k))
    (h2 : ∀ k : Fin 1024, x2 (ix2 p k) = A (ix2 r k)) (h3 : ∀ q : Fin 1024, x3 (ix2 p q) = CX (ix2 r q))
    (h4 : ∀ (g : Nat) (hg : g < 4) (q k : Fin 1024), x4 (ix3 (⟨g, hg⟩ : Fin 4) q k) = Wih (ix2 (row4 g hg q) k))
    (h5 : ∀ (g : Nat) (hg : g < 4) (q k : Fin 1024), x5 (ix3 (⟨g, hg⟩ : Fin 4) q k) = Whh (ix2 (row4 g hg q) k))
    (h6 : ∀ (g : Nat) (hg : g < 2) (q k : Fin 1024), x6 (ix3 (⟨g, hg⟩ : Fin 2) q k) = Watt (ix2 (row2 g hg q) k))
    (h7 : ∀ (g : Nat) (hg : g < 4) (q : Fin 1024), x7 (ix2 (⟨g, hg⟩ : Fin 4) q) = bih (ix1 (row4 g hg q)))
    (h8 : ∀ (g : Nat) (hg : g < 4) (q : Fin 1024), x8 (ix2 (⟨g, hg⟩ : Fin 4) q) = bhh (ix1 (row4 g hg q)))
    (h9 : ∀ (g : Nat) (hg : g < 2) (q : Fin 1024), x9 (ix2 (⟨g, hg⟩ : Fin 2) q) = batt (ix1 (row2 g hg q)))
    (q : Fin 1024) :
    cyB x0 x1 x2 x3 x4 x5 x6 x7 x8 x9 p q = cyAt X H CX A Wih Whh bih bhh Watt batt r q := by
  unfold cyB cyAt gateB gateAt attB attAt
  simp only [h0, h1, h2, h3, h4, h5, h6, h7, h8, h9]

/-- The same for the next hidden state. -/
theorem hyB_eq_hyAt
    (h0 : ∀ k : Fin 1024, x0 (ix2 p k) = X (ix2 r k)) (h1 : ∀ k : Fin 1024, x1 (ix2 p k) = H (ix2 r k))
    (h2 : ∀ k : Fin 1024, x2 (ix2 p k) = A (ix2 r k)) (h3 : ∀ q : Fin 1024, x3 (ix2 p q) = CX (ix2 r q))
    (h4 : ∀ (g : Nat) (hg : g < 4) (q k : Fin 1024), x4 (ix3 (⟨g, hg⟩ : Fin 4) q k) = Wih (ix2 (row4 g hg q) k))
    (h5 : ∀ (g : Nat) (hg : g < 4) (q k : Fin 1024), x5 (ix3 (⟨g, hg⟩ : Fin 4) q k) = Whh (ix2 (row4 g hg q) k))
    (h6 : ∀ (g : Nat) (hg : g < 2) (q k : Fin 1024), x6 (ix3 (⟨g, hg⟩ : Fin 2) q k) = Watt (ix2 (row2 g hg q) k))
    (h7 : ∀ (g : Nat) (hg : g < 4) (q : Fin 1024), x7 (ix2 (⟨g, hg⟩ : Fin 4) q) = bih (ix1 (row4 g hg q)))
    (h8 : ∀ (g : Nat) (hg : g < 4) (q : Fin 1024), x8 (ix2 (⟨g, hg⟩ : Fin 4) q) = bhh (ix1 (row4 g hg q)))
    (h9 : ∀ (g : Nat) (hg : g < 2) (q : Fin 1024), x9 (ix2 (⟨g, hg⟩ : Fin 2) q) = batt (ix1 (row2 g hg q)))
    (q : Fin 1024) :
    hyB x0 x1 x2 x3 x4 x5 x6 x7 x8 x9 p q = hyAt X H CX A Wih Whh bih bhh Watt batt r q := by
  unfold hyB hyAt
  rw [cyB_eq_cyAt x0 x1 x2 x3 x4 x5 x6 x7 x8 x9 X H CX A Wih Whh bih bhh Watt batt r p h0 h1 h2 h3 h4 h5 h6 h7 h8 h9 q]
  unfold gateB gateAt
  simp only [h0, h1, h4, h5, h7, h8]

end Rows

/-! ## The arrays as the call finds them -/

variable (m : (ℓ : Loc nD τ sig) → Buf (Elt Ideal) ℓ) (ρ : Dev nD → PrngReg)

theorem V_v0 (c : Dev nD) : (V m c main_v0 : S8192x1024.Idx → EReal) = m ((c : Thread nD τ).loc main_arg0) := by
  dsimp only [Gen.V, Gen.hostOps0]; after_results; rfl
theorem V_v1 (c : Dev nD) : (V m c main_v1 : S8192x1024.Idx → EReal) = m ((c : Thread nD τ).loc main_arg1) := by
  dsimp only [Gen.V, Gen.hostOps0]; after_results; rfl
theorem V_v2 (c : Dev nD) : (V m c main_v2 : S8192x1024.Idx → EReal) = m ((c : Thread nD τ).loc main_arg3) := by
  dsimp only [Gen.V, Gen.hostOps0]; after_results; rfl

/-- A [4096, 1024] array re-laid as [4, 1024, 1024]: entry (g, q, k) is row 1024 g + q, column k. -/
theorem relay4 (W : FVec Ideal S4096x1024 .f32) (h : S4096x1024.ShapeCasts S4x1024x1024) (g : Nat) (hg : g < 4)
    (q k : Fin 1024) : shapeCast S4x1024x1024 W h (ix3 (⟨g, hg⟩ : Fin 4) q k) = W (ix2 (row4 g hg q) k) :=
  shapeCast_apply W h _ _ (by rw [Shape.rowMajor_val_two, Shape.rowMajor_val_three]; rfl)

theorem relay2 (W : FVec Ideal S2048x1024 .f32) (h : S2048x1024.ShapeCasts S2x1024x1024) (g : Nat) (hg : g < 2)
    (q k : Fin 1024) : shapeCast S2x1024x1024 W h (ix3 (⟨g, hg⟩ : Fin 2) q k) = W (ix2 (row2 g hg q) k) :=
  shapeCast_apply W h _ _ (by rw [Shape.rowMajor_val_two, Shape.rowMajor_val_three]; rfl)

/-- A [4096] vector re-laid as [4, 1024]: entry (g, q) is entry 1024 g + q. -/
theorem relayB4 (b : FVec Ideal S4096 .f32) (h : S4096.ShapeCasts S4x1024) (g : Nat) (hg : g < 4) (q : Fin 1024) :
    shapeCast S4x1024 b h (ix2 (⟨g, hg⟩ : Fin 4) q) = b (ix1 (row4 g hg q)) :=
  shapeCast_apply b h _ _ (by rw [Shape.rowMajor_val_one, Shape.rowMajor_val_two]; rfl)

theorem relayB2 (b : FVec Ideal S2048 .f32) (h : S2048.ShapeCasts S2x1024) (g : Nat) (hg : g < 2) (q : Fin 1024) :
    shapeCast S2x1024 b h (ix2 (⟨g, hg⟩ : Fin 2) q) = b (ix1 (row2 g hg q)) :=
  shapeCast_apply b h _ _ (by rw [Shape.rowMajor_val_one, Shape.rowMajor_val_two]; rfl)

theorem V_v4 (c : Dev nD) (g : Nat) (hg : g < 4) (q k : Fin 1024) :
    (V m c main_v4 : S4x1024x1024.Idx → EReal) (ix3 (⟨g, hg⟩ : Fin 4) q k) = m ((c : Thread nD τ).loc main_arg4) (ix2 (row4 g hg q) k) := by
  have e : (V m c main_v4 : S4x1024x1024.Idx → EReal)
      = shapeCast S4x1024x1024 (m ((c : Thread nD τ).loc main_arg4)) Facts₀.shapeCasts_S4096x1024_S4x1024x1024 := by
    dsimp only [Gen.V, Gen.hostOps0]; after_results; rfl
  rw [e]; exact relay4 _ _ g hg q k
theorem V_v6 (c : Dev nD) (g : Nat) (hg : g < 4) (q k : Fin 1024) :
    (V m c main_v6 : S4x1024x1024.Idx → EReal) (ix3 (⟨g, hg⟩ : Fin 4) q k) = m ((c : Thread nD τ).loc main_arg5) (ix2 (row4 g hg q) k) := by
  have e : (V m c main_v6 : S4x1024x1024.Idx → EReal)
      = shapeCast S4x1024x1024 (m ((c : Thread nD τ).loc main_arg5)) Facts₀.shapeCasts_S4096x1024_S4x1024x1024 := by
    dsimp only [Gen.V, Gen.hostOps0]; after_results; rfl
  rw [e]; exact relay4 _ _ g hg q k
theorem V_v8 (c : Dev nD) (g : Nat) (hg : g < 2) (q k : Fin 1024) :
    (V m c main_v8 : S2x1024x1024.Idx → EReal) (ix3 (⟨g, hg⟩ : Fin 2) q k) = m ((c : Thread nD τ).loc main_arg8) (ix2 (row2 g hg q) k) := by
  have e : (V m c main_v8 : S2x1024x1024.Idx → EReal)
      = shapeCast S2x1024x1024 (m ((c : Thread nD τ).loc main_arg8)) Facts₀.shapeCasts_S2048x1024_S2x1024x1024 := by
    dsimp only [Gen.V, Gen.hostOps0]; after_results; rfl
  rw [e]; exact relay2 _ _ g hg q k
theorem V_v9 (c : Dev nD) (g : Nat) (hg : g < 4) (q : Fin 1024) :
    (V m c main_v9 : S4x1024.Idx → EReal) (ix2 (⟨g, hg⟩ : Fin 4) q) = m ((c : Thread nD τ).loc main_arg6) (ix1 (row4 g hg q)) := by
  have e : (V m c main_v9 : S4x1024.Idx → EReal)
      = shapeCast S4x1024 (m ((c : Thread nD τ).loc main_arg6)) Facts₀.shapeCasts_S4096_S4x1024 := by
    dsimp only [Gen.V, Gen.hostOps0]; after_results; rfl
  rw [e]; exact relayB4 _ _ g hg q
theorem V_v10 (c : Dev nD) (g : Nat) (hg : g < 4) (q : Fin 1024) :
    (V m c main_v10 : S4x1024.Idx → EReal) (ix2 (⟨g, hg⟩ : Fin 4) q) = m ((c : Thread nD τ).loc main_arg7) (ix1 (row4 g hg q)) := by
  have e : (V m c main_v10 : S4x1024.Idx → EReal)
      = shapeCast S4x1024 (m ((c : Thread nD τ).loc main_arg7)) Facts₀.shapeCasts_S4096_S4x1024 := by
    dsimp only [Gen.V, Gen.hostOps0]; after_results; rfl
  rw [e]; exact relayB4 _ _ g hg q
theorem V_v11 (c : Dev nD) (g : Nat) (hg : g < 2) (q : Fin 1024) :
    (V m c main_v11 : S2x1024.Idx → EReal) (ix2 (⟨g, hg⟩ : Fin 2) q) = m ((c : Thread nD τ).loc main_arg9) (ix1 (row2 g hg q)) := by
  have e : (V m c main_v11 : S2x1024.Idx → EReal)
      = shapeCast S2x1024 (m ((c : Thread nD τ).loc main_arg9)) Facts₀.shapeCasts_S2048_S2x1024 := by
    dsimp only [Gen.V, Gen.hostOps0]; after_results; rfl
  rw [e]; exact relayB2 _ _ g hg q

/-! ## The windows' blocks against the arrays -/

/-- The printed index maps, decided over the 32 grid points: the four activation windows and the two result windows
    take block t along the rows, and the weight and bias windows always take block 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

theorem idx_whole : ∀ t : Fin cfg0.N,
    win0_4.index t (0 : Fin 3) = 0 ∧ win0_4.index t (1 : Fin 3) = 0 ∧ win0_4.index t (2 : Fin 3) = 0
    ∧ win0_5.index t (0 : Fin 3) = 0 ∧ win0_5.index t (1 : Fin 3) = 0 ∧ win0_5.index t (2 : Fin 3) = 0
    ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- The batch row that row p of point t's block is. -/
def rowAt (t : Fin cfg0.N) (p : Fin 256) : Fin 8192 :=
  ⟨t.val * 256 + p.val, by have h := t.isLt; have hN : cfg0.N = 32 := N_0; have := p.isLt; omega⟩

theorem read0 (c : Dev nD) (t : Fin cfg0.N) (p : Fin 256) (k : Fin 1024) :
    iblk m c 0 t (ix2 p k) = m ((c : Thread nD τ).loc main_arg0) (ix2 (rowAt t p) k) := by
  show V m c main_v0 (((cfg0.win 0).blk t).view.emb (ix2 p k)) = _
  rw [V_v0]
  obtain ⟨e0, e1, -⟩ := idx_rows t
  congr 1; funext a; apply Fin.ext
  match a with
  | ⟨0, _⟩ => show win0_0.index t (0 : Fin 2) * 256 + 1 * p.val = t.val * 256 + p.val; omega
  | ⟨1, _⟩ => show win0_0.index t (1 : Fin 2) * 1024 + 1 * k.val = k.val; omega

theorem read1 (c : Dev nD) (t : Fin cfg0.N) (p : Fin 256) (k : Fin 1024) :
    iblk m c 1 t (ix2 p k) = m ((c : Thread nD τ).loc main_arg1) (ix2 (rowAt t p) k) := by
  show V m c main_v1 (((cfg0.win 1).blk t).view.emb (ix2 p k)) = _
  rw [V_v1]
  obtain ⟨-, -, e0, e1, -⟩ := idx_rows t
  congr 1; funext a; apply Fin.ext
  match a with
  | ⟨0, _⟩ => show win0_1.index t (0 : Fin 2) * 256 + 1 * p.val = t.val * 256 + p.val; omega
  | ⟨1, _⟩ => show win0_1.index t (1 : Fin 2) * 1024 + 1 * k.val = k.val; omega

theorem read2 (c : Dev nD) (t : Fin cfg0.N) (p : Fin 256) (k : Fin 1024) :
    iblk m c 2 t (ix2 p k) = m ((c : Thread nD τ).loc main_arg3) (ix2 (rowAt t p) k) := by
  show V m c main_v2 (((cfg0.win 2).blk t).view.emb (ix2 p k)) = _
  rw [V_v2]
  obtain ⟨-, -, -, -, e0, e1, -⟩ := idx_rows t
  congr 1; funext a; apply Fin.ext
  match a with
  | ⟨0, _⟩ => show win0_2.index t (0 : Fin 2) * 256 + 1 * p.val = t.val * 256 + p.val; omega
  | ⟨1, _⟩ => show win0_2.index t (1 : Fin 2) * 1024 + 1 * k.val = k.val; omega

theorem read3 (c : Dev nD) (t : Fin cfg0.N) (p : Fin 256) (q : Fin 1024) :
    iblk m c 3 t (ix2 p q) = m ((c : Thread nD τ).loc main_arg2) (ix2 (rowAt t p) q) := by
  show V m c main_arg2 (((cfg0.win 3).blk t).view.emb (ix2 p q)) = _
  rw [V_main_arg2]
  obtain ⟨-, -, -, -, -, -, e0, e1, -⟩ := idx_rows t
  congr 1; funext a; apply Fin.ext
  match a with
  | ⟨0, _⟩ => show win0_3.index t (0 : Fin 2) * 256 + 1 * p.val = t.val * 256 + p.val; omega
  | ⟨1, _⟩ => show win0_3.index t (1 : Fin 2) * 1024 + 1 * q.val = q.val; omega

theorem read4 (c : Dev nD) (t : Fin cfg0.N) (g : Nat) (hg : g < 4) (q k : Fin 1024) :
    iblk m c 4 t (ix3 (⟨g, hg⟩ : Fin 4) q k) = m ((c : Thread nD τ).loc main_arg4) (ix2 (row4 g hg q) k) := by
  show V m c main_v4 (((cfg0.win 4).blk t).view.emb (ix3 (⟨g, hg⟩ : Fin 4) q k)) = _
  rw [← V_v4 m c g hg q k]
  obtain ⟨e0, e1, e2, -⟩ := idx_whole t
  congr 1; funext a; apply Fin.ext
  match a with
  | ⟨0, _⟩ => show win0_4.index t (0 : Fin 3) * 4 + 1 * g = g; omega
  | ⟨1, _⟩ => show win0_4.index t (1 : Fin 3) * 1024 + 1 * q.val = q.val; omega
  | ⟨2, _⟩ => show win0_4.index t (2 : Fin 3) * 1024 + 1 * k.val = k.val; omega

theorem read5 (c : Dev nD) (t : Fin cfg0.N) (g : Nat) (hg : g < 4) (q k : Fin 1024) :
    iblk m c 5 t (ix3 (⟨g, hg⟩ : Fin 4) q k) = m ((c : Thread nD τ).loc main_arg5) (ix2 (row4 g hg q) k) := by
  show V m c main_v6 (((cfg0.win 5).blk t).view.emb (ix3 (⟨g, hg⟩ : Fin 4) q k)) = _
  rw [← V_v6 m c g hg q k]
  obtain ⟨-, -, -, e0, e1, e2, -⟩ := idx_whole t
  congr 1; funext a; apply Fin.ext
  match a with
  | ⟨0, _⟩ => show win0_5.index t (0 : Fin 3) * 4 + 1 * g = g; omega
  | ⟨1, _⟩ => show win0_5.index t (1 : Fin 3) * 1024 + 1 * q.val = q.val; omega
  | ⟨2, _⟩ => show win0_5.index t (2 : Fin 3) * 1024 + 1 * k.val = k.val; omega

theorem read6 (c : Dev nD) (t : Fin cfg0.N) (g : Nat) (hg : g < 2) (q k : Fin 1024) :
    iblk m c 6 t (ix3 (⟨g, hg⟩ : Fin 2) q k) = m ((c : Thread nD τ).loc main_arg8) (ix2 (row2 g hg q) k) := by
  show V m c main_v8 (((cfg0.win 6).blk t).view.emb (ix3 (⟨g, hg⟩ : Fin 2) q k)) = _
  rw [← V_v8 m c g hg q k]
  obtain ⟨-, -, -, -, -, -, e0, e1, e2, -⟩ := idx_whole t
  congr 1; funext a; apply Fin.ext
  match a with
  | ⟨0, _⟩ => show win0_6.index t (0 : Fin 3) * 2 + 1 * g = g; omega
  | ⟨1, _⟩ => show win0_6.index t (1 : Fin 3) * 1024 + 1 * q.val = q.val; omega
  | ⟨2, _⟩ => show win0_6.index t (2 : Fin 3) * 1024 + 1 * k.val = k.val; omega

theorem read7 (c : Dev nD) (t : Fin cfg0.N) (g : Nat) (hg : g < 4) (q : Fin 1024) :
    iblk m c 7 t (ix2 (⟨g, hg⟩ : Fin 4) q) = m ((c : Thread nD τ).loc main_arg6) (ix1 (row4 g hg q)) := by
  show V m c main_v9 (((cfg0.win 7).blk t).view.emb (ix2 (⟨g, hg⟩ : Fin 4) q)) = _
  rw [← V_v9 m c g hg q]
  obtain ⟨-, -, -, -, -, -, -, -, -, e0, e1, -⟩ := idx_whole t
  congr 1; funext a; apply Fin.ext
  match a with
  | ⟨0, _⟩ => show win0_7.index t (0 : Fin 2) * 4 + 1 * g = g; omega
  | ⟨1, _⟩ => show win0_7.index t (1 : Fin 2) * 1024 + 1 * q.val = q.val; omega

theorem read8 (c : Dev nD) (t : Fin cfg0.N) (g : Nat) (hg : g < 4) (q : Fin 1024) :
    iblk m c 8 t (ix2 (⟨g, hg⟩ : Fin 4) q) = m ((c : Thread nD τ).loc main_arg7) (ix1 (row4 g hg q)) := by
  show V m c main_v10 (((cfg0.win 8).blk t).view.emb (ix2 (⟨g, hg⟩ : Fin 4) q)) = _
  rw [← V_v10 m c g hg q]
  obtain ⟨-, -, -, -, -, -, -, -, -, -, -, e0, e1, -⟩ := idx_whole t
  congr 1; funext a; apply Fin.ext
  match a with
  | ⟨0, _⟩ => show win0_8.index t (0 : Fin 2) * 4 + 1 * g = g; omega
  | ⟨1, _⟩ => show win0_8.index t (1 : Fin 2) * 1024 + 1 * q.val = q.val; omega

theorem read9 (c : Dev nD) (t : Fin cfg0.N) (g : Nat) (hg : g < 2) (q : Fin 1024) :
    iblk m c 9 t (ix2 (⟨g, hg⟩ : Fin 2) q) = m ((c : Thread nD τ).loc main_arg9) (ix1 (row2 g hg q)) := by
  show V m c main_v11 (((cfg0.win 9).blk t).view.emb (ix2 (⟨g, hg⟩ : Fin 2) q)) = _
  rw [← V_v11 m c g hg q]
  obtain ⟨-, -, -, -, -, -, -, -, -, -, -, -, -, e0, e1⟩ := idx_whole t
  congr 1; funext a; apply Fin.ext
  match a with
  | ⟨0, _⟩ => show win0_9.index t (0 : Fin 2) * 2 + 1 * g = g; omega
  | ⟨1, _⟩ => show win0_9.index t (1 : Fin 2) * 1024 + 1 * q.val = q.val; omega

/-! ## What a point writes back, the cover, and the run -/

/-- Entry (p, q) of point t's block of a result array sits at batch row 256 t + p, unit q. -/
theorem emb11 (t : Fin cfg0.N) (p : Fin 256) (q : Fin 1024) :
    ((cfg0.win 11).blk t).view.emb (ix2 p q) = ix2 (rowAt t p) q := by
  obtain ⟨-, -, -, -, -, -, -, -, -, -, e0, e1⟩ := idx_rows t
  funext a; apply Fin.ext
  match a with
  | ⟨0, _⟩ => show win0_11.index t (0 : Fin 2) * 256 + 1 * p.val = t.val * 256 + p.val; omega
  | ⟨1, _⟩ => show win0_11.index t (1 : Fin 2) * 1024 + 1 * q.val = q.val; omega

theorem emb10 (t : Fin cfg0.N) (p : Fin 256) (q : Fin 1024) :
    ((cfg0.win 10).blk t).view.emb (ix2 p q) = ix2 (rowAt t p) q := by
  obtain ⟨-, -, -, -, -, -, -, -, e0, e1, -⟩ := idx_rows t
  funext a; apply Fin.ext
  match a with
  | ⟨0, _⟩ => show win0_10.index t (0 : Fin 2) * 256 + 1 * p.val = t.val * 256 + p.val; omega
  | ⟨1, _⟩ => show win0_10.index t (1 : Fin 2) * 1024 + 1 * q.val = q.val; omega

/-- WHAT POINT t WRITES BACK for the next cell state is block t of `cyArr` of the arguments. -/
theorem flushed11_eq (c : Dev nD) (t : Fin cfg0.N) :
    (dats m 0 c).flushed 11 t
      = ((cfg0.win 11).blk t).view.read (Elt Ideal) (cyArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Value.flushed11]
  funext j
  revert j
  show ∀ j : S256x1024.Idx, out0_11 (iblk m c 0 t) (iblk m c 1 t) (iblk m c 2 t) (iblk m c 3 t) (iblk m c 4 t) (iblk m c 5 t) (iblk m c 6 t) (iblk m c 7 t) (iblk m c 8 t) (iblk m c 9 t) j
      = cyArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 11).blk t).view.emb j)
  intro j
  obtain ⟨p, q, rfl⟩ : ∃ (p : Fin 256) (q : Fin 1024), j = ix2 p q := ⟨j 0, j 1, eq_ix2 j⟩
  refine (out11_apply (iblk m c 0 t) (iblk m c 1 t) (iblk m c 2 t) (iblk m c 3 t) (iblk m c 4 t) (iblk m c 5 t) (iblk m c 6 t) (iblk m c 7 t) (iblk m c 8 t) (iblk m c 9 t) p q).trans ?_
  rw [emb11]
  exact cyB_eq_cyAt (iblk m c 0 t) (iblk m c 1 t) (iblk m c 2 t) (iblk m c 3 t) (iblk m c 4 t) (iblk m c 5 t) (iblk m c 6 t) (iblk m c 7 t) (iblk m c 8 t) (iblk m c 9 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (rowAt t p) p
    (read0 m c t p) (read1 m c t p) (read2 m c t p) (read3 m c t p) (read4 m c t) (read5 m c t) (read6 m c t)
    (read7 m c t) (read8 m c t) (read9 m c t) q

/-- … and for the next hidden state block t of `hyArr`. -/
theorem flushed10_eq (c : Dev nD) (t : Fin cfg0.N) :
    (dats m 0 c).flushed 10 t
      = ((cfg0.win 10).blk t).view.read (Elt Ideal) (hyArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Value.flushed10]
  funext j
  revert j
  show ∀ j : S256x1024.Idx, out0_10 (iblk m c 0 t) (iblk m c 1 t) (iblk m c 2 t) (iblk m c 3 t) (iblk m c 4 t) (iblk m c 5 t) (iblk m c 6 t) (iblk m c 7 t) (iblk m c 8 t) (iblk m c 9 t) j
      = hyArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 10).blk t).view.emb j)
  intro j
  obtain ⟨p, q, rfl⟩ : ∃ (p : Fin 256) (q : Fin 1024), j = ix2 p q := ⟨j 0, j 1, eq_ix2 j⟩
  refine (out10_apply (iblk m c 0 t) (iblk m c 1 t) (iblk m c 2 t) (iblk m c 3 t) (iblk m c 4 t) (iblk m c 5 t) (iblk m c 6 t) (iblk m c 7 t) (iblk m c 8 t) (iblk m c 9 t) p q).trans ?_
  rw [emb10]
  exact hyB_eq_hyAt (iblk m c 0 t) (iblk m c 1 t) (iblk m c 2 t) (iblk m c 3 t) (iblk m c 4 t) (iblk m c 5 t) (iblk m c 6 t) (iblk m c 7 t) (iblk m c 8 t) (iblk m c 9 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (rowAt t p) p
    (read0 m c t p) (read1 m c t p) (read2 m c t p) (read3 m c t p) (read4 m c t) (read5 m c t) (read6 m c t)
    (read7 m c t) (read8 m c t) (read9 m c t) q

/-- An index of a result array is in point t's block iff each coordinate is in the block's range on its axis. -/
theorem mem_blk11 (t : Fin cfg0.N) (i : S8192x1024.Idx) :
    i ∈ ((cfg0.win 11).blk t).view.set ↔ ∀ a : Fin 2, win0_11.index t a * S256x1024.size a ≤ (i a).val ∧ (i a).val < win0_11.index t a * S256x1024.size a + S256x1024.size a := by
  show i ∈ ((View.whole main_v12_1).slice (win0_11.rect t)).set ↔ _
  rw [View.set_slice_whole, Rect.mem_set_unit]
  exact Iff.rfl

theorem mem_blk10 (t : Fin cfg0.N) (i : S8192x1024.Idx) :
    i ∈ ((cfg0.win 10).blk t).view.set ↔ ∀ a : Fin 2, win0_10.index t a * S256x1024.size a ≤ (i a).val ∧ (i a).val < win0_10.index t a * S256x1024.size a + S256x1024.size a := by
  show i ∈ ((View.whole main_v12_0).slice (win0_10.rect t)).set ↔ _
  rw [View.set_slice_whole, Rect.mem_set_unit]
  exact Iff.rfl

/-- The 32 blocks of 256 rows tile the 8192 rows: batch row r is in the block of point r / 256. -/
theorem cover11 (i : S8192x1024.Idx) :
    ∃ t : Fin cfg0.N, (cfg0.win 11).flush t = true ∧ i ∈ ((cfg0.win 11).blk t).view.set := by
  have hi0 : (i 0).val < 8192 := (i 0).isLt
  have hi1 : (i 1).val < 1024 := (i 1).isLt
  obtain ⟨t, ht⟩ : ∃ t : Fin cfg0.N, t.val = (i 0).val / 256 :=
    ⟨⟨(i 0).val / 256, by have hN : cfg0.N = 32 := N_0; omega⟩, rfl⟩
  obtain ⟨-, -, -, -, -, -, -, -, -, -, e0, e1⟩ := idx_rows t
  refine ⟨t, flush0_11 t, ?_⟩
  rw [mem_blk11]
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 1024 ≤ (i 1).val ∧ (i 1).val < win0_11.index t (1 : Fin 2) * 1024 + 1024; omega

theorem cover10 (i : S8192x1024.Idx) :
    ∃ t : Fin cfg0.N, (cfg0.win 10).flush t = true ∧ i ∈ ((cfg0.win 10).blk t).view.set := by
  have hi0 : (i 0).val < 8192 := (i 0).isLt
  have hi1 : (i 1).val < 1024 := (i 1).isLt
  obtain ⟨t, ht⟩ : ∃ t : Fin cfg0.N, t.val = (i 0).val / 256 :=
    ⟨⟨(i 0).val / 256, by have hN : cfg0.N = 32 := N_0; omega⟩, rfl⟩
  obtain ⟨-, -, -, -, -, -, -, -, e0, e1, -⟩ := idx_rows t
  refine ⟨t, flush0_10 t, ?_⟩
  rw [mem_blk10]
  intro a
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 1024 ≤ (i 1).val ∧ (i 1).val < win0_10.index t (1 : Fin 2) * 1024 + 1024; omega

/-- The next cell state's array after the run. -/
theorem final11 (c : Dev nD) : (dats m 0 c).arrAt 11 cfg0.N = cyArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 11 _ (fun t _ => flushed11_eq m c t) cover11

/-- The next hidden state's array after the run. -/
theorem final10 (c : Dev nD) : (dats m 0 c).arrAt 10 cfg0.N = hyArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 10 _ (fun t _ => flushed10_eq m c t) cover10

/-- The kernel's run re-posted: the two results at `hyArr` and `cyArr` of the arguments, the arguments unchanged. -/
theorem run : θ_run defs (onTc (τ := τ) (main (F := Ideal))) ⟨m, fun _ => 0, ρ⟩ fun r => ∀ c : Dev nD,
      r.2.mem ((c : Thread nD τ).loc main_v12_0) = hyArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v12_1) = cyArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c), (h c).2.2⟩)
    (Value.run_blocks m ρ)

end Cert.KernelIdeal.Arrays

end
-- ==== Proof.RefValue.lean ====
/-
  The reference's two results are the arrays `cyArr` and `hyArr`.

  The reference computes all four gates at once, as one [8192, 4096] array
      gates(r, c) = x_r · Wih[c] + bih[c] + h_r · Whh[c] + bhh[c]
  (the first bias added before the second product), and the two attention gates as one [8192, 2048] array, and then cuts
  the columns into blocks of 1024: column 1024 g + j of the wide array is unit j of gate g, which is row 1024 g + j of the
  stacked weights. It spells the logistic function out as 1 / (1 + exp(−y)), which on the extended reals
  is the function `Ideal.logistic`, and adds the forget term of the cell state first.
-/
import proofs.«148934_j32744830664921_1_alg».proof.Proof.Gen.ReferenceIdeal.Read
import proofs.«148934_j32744830664921_1_alg».proof.Proof.Cell
import Idealize.ShloMosaic.Lib.IdealHost

open scoped BigOperators

noncomputable section

namespace Cert.ReferenceIdeal.RefValue

open Cert.ReferenceIdeal Cert.ReferenceIdeal.Read Idealize.ShloMosaic Idealize.ShloMosaic.ValueIdx Cert.AttLstm

variable (x0 x1 x2 x3 : FVec Ideal S8192x1024 .f32) (x4 x5 : FVec Ideal S4096x1024 .f32) (x6 x7 : FVec Ideal S4096 .f32)
  (x8 : FVec Ideal S2048x1024 .f32) (x9 : FVec Ideal S2048 .f32)

/-- The four gates at once, at row r and column c of the wide array. -/
theorem gates_apply (r : Fin 8192) (c : Fin 4096) :
    val_main_v10 (F := Ideal) x0 x1 x4 x5 x6 x7 (ix2 r c)
      = (∑ k : Fin 1024, x0 (ix2 r k) * x4 (ix2 c k) + x6 (ix1 c)) + ∑ k : Fin 1024, x1 (ix2 r k) * x5 (ix2 c k) + x7 (ix1 c) := by
  rw [val_main_v10_apply, val_main_v7_apply, val_main_v4_apply, val_main_v1_apply, val_main_v3_apply, val_main_v2_apply,
    val_main_v6_apply, val_main_v9_apply, val_main_v8_apply]
  simp only [val_main_v0_apply, val_main_v5_apply]
  have el : ∀ k : Fin 1024, lidx_main_v1 (ix2 r c) k = ix2 r k := fun k =>
    funext fun a => Fin.ext (by match a with | ⟨0, _⟩ => rfl | ⟨1, _⟩ => rfl)
  have er : ∀ k : Fin 1024, idx_main_v0 (ridx_main_v1 (ix2 r c) k) = ix2 c k := fun k =>
    funext fun a => Fin.ext (by match a with | ⟨0, _⟩ => rfl | ⟨1, _⟩ => rfl)
  have el' : ∀ k : Fin 1024, lidx_main_v6 (ix2 r c) k = ix2 r k := fun k =>
    funext fun a => Fin.ext (by match a with | ⟨0, _⟩ => rfl | ⟨1, _⟩ => rfl)
  have er' : ∀ k : Fin 1024, idx_main_v5 (ridx_main_v6 (ix2 r c) k) = ix2 c k := fun k =>
    funext fun a => Fin.ext (by match a with | ⟨0, _⟩ => rfl | ⟨1, _⟩ => rfl)
  have eb : idx_main_v2 (idx_main_v3 (ix2 r c)) = ix1 c :=
    funext fun a => Fin.ext (by match a with | ⟨0, _⟩ => rfl)
  have eb' : idx_main_v8 (idx_main_v9 (ix2 r c)) = ix1 c :=
    funext fun a => Fin.ext (by match a with | ⟨0, _⟩ => rfl)
  simp only [el, er, el', er', eb, eb']
  rfl

/-- The two attention gates at once, at row r and column c. -/
theorem atts_apply (r : Fin 8192) (c : Fin 2048) :
    val_main_v15 (F := Ideal) x3 x8 x9 (ix2 r c) = ∑ k : Fin 1024, x3 (ix2 r k) * x8 (ix2 c k) + x9 (ix1 c) := by
  rw [val_main_v15_apply, val_main_v12_apply, val_main_v14_apply, val_main_v13_apply]
  simp only [val_main_v11_apply]
  have el : ∀ k : Fin 1024, lidx_main_v12 (ix2 r c) k = ix2 r k := fun k =>
    funext fun a => Fin.ext (by match a with | ⟨0, _⟩ => rfl | ⟨1, _⟩ => rfl)
  have er : ∀ k : Fin 1024, idx_main_v11 (ridx_main_v12 (ix2 r c) k) = ix2 c k := fun k =>
    funext fun a => Fin.ext (by match a with | ⟨0, _⟩ => rfl | ⟨1, _⟩ => rfl)
  have eb : idx_main_v13 (idx_main_v14 (ix2 r c)) = ix1 c :=
    funext fun a => Fin.ext (by match a with | ⟨0, _⟩ => rfl)
  simp only [el, er, eb]
  rfl

/-- Column 1024 g + j of the four gates is gate g's pre-activation at unit j: the same four terms, the reference adding
    the first bias before the second product. -/
theorem gates_block (g : Nat) (hg : g < 4) (r : Fin 8192) (j : Fin 1024) :
    val_main_v10 (F := Ideal) x0 x1 x4 x5 x6 x7 (ix2 r (row4 g hg j)) = gateAt x0 x1 x4 x5 x6 x7 g hg r j := by
  rw [gates_apply]
  exact gatePre_of_bias_first _ _ _ _ _ _

/-- Column 1024 g + j of the two attention gates. -/
theorem atts_block (g : Nat) (hg : g < 2) (r : Fin 8192) (j : Fin 1024) :
    val_main_v15 (F := Ideal) x3 x8 x9 (ix2 r (row2 g hg j)) = attAt x3 x8 x9 g hg r j := by
  rw [atts_apply]
  rfl

/-- The reference's spelling of the logistic function, with its two constants 1.0. -/
theorem sigmoid_eq (y : EReal) :
    FloatOps.hostDivf (F := Ideal) (φ := .f32) (FloatOps.ofBits .f32 0x3F800000#32)
        (FloatOps.addf (FloatOps.ofBits .f32 0x3F800000#32) (FloatOps.hostUnary .exp (FloatOps.hostNegf y)))
      = Ideal.logistic y := by
  show Ideal.div (Ideal.ofBits .f32 0x3F800000#32) (Ideal.ofBits .f32 0x3F800000#32 + Ideal.exp (-y)) = Ideal.logistic y
  rw [Ideal.ofBits_one_f32]
  rfl

/-- The six slices: block `g` of the wide arrays at (r, j). -/
theorem slice16 (r : Fin 8192) (j : Fin 1024) : idx_main_v16 (ix2 r j) = ix2 r (row4 0 (by omega) j) :=
  funext fun a => Fin.ext (by match a with | ⟨0, _⟩ => rfl | ⟨1, _⟩ => show j.val = 0 * 1024 + j.val; omega)
theorem slice17 (r : Fin 8192) (j : Fin 1024) : idx_main_v17 (ix2 r j) = ix2 r (row4 1 (by omega) j) :=
  funext fun a => Fin.ext (by match a with | ⟨0, _⟩ => rfl | ⟨1, _⟩ => show 1024 + j.val = 1 * 1024 + j.val; omega)
theorem slice18 (r : Fin 8192) (j : Fin 1024) : idx_main_v18 (ix2 r j) = ix2 r (row4 2 (by omega) j) :=
  funext fun a => Fin.ext (by match a with | ⟨0, _⟩ => rfl | ⟨1, _⟩ => show 2048 + j.val = 2 * 1024 + j.val; omega)
theorem slice19 (r : Fin 8192) (j : Fin 1024) : idx_main_v19 (ix2 r j) = ix2 r (row4 3 (by omega) j) :=
  funext fun a => Fin.ext (by match a with | ⟨0, _⟩ => rfl | ⟨1, _⟩ => show 3072 + j.val = 3 * 1024 + j.val; omega)
theorem slice20 (r : Fin 8192) (j : Fin 1024) : idx_main_v20 (ix2 r j) = ix2 r (row2 0 (by omega) j) :=
  funext fun a => Fin.ext (by match a with | ⟨0, _⟩ => rfl | ⟨1, _⟩ => show j.val = 0 * 1024 + j.val; omega)
theorem slice21 (r : Fin 8192) (j : Fin 1024) : idx_main_v21 (ix2 r j) = ix2 r (row2 1 (by omega) j) :=
  funext fun a => Fin.ext (by match a with | ⟨0, _⟩ => rfl | ⟨1, _⟩ => show 1024 + j.val = 1 * 1024 + j.val; omega)

/-- The reference's next cell state at (r, j). -/
theorem cy_apply (r : Fin 8192) (j : Fin 1024) :
    val_main_v52 (F := Ideal) x0 x1 x2 x3 x4 x5 x6 x7 x8 x9 (ix2 r j) = cyAt x0 x1 x2 x3 x4 x5 x6 x7 x8 x9 r j := by
  rw [val_main_v52_apply, val_main_v50_apply, val_main_v48_apply, val_main_v49_apply, val_main_v51_apply,
    val_main_v33_apply, val_main_v32_apply, val_main_cst_2_apply, val_main_v31_apply, val_main_v30_apply, val_main_cst_1_apply,
    val_main_v29_apply, val_main_v28_apply, sigmoid_eq,
    val_main_v27_apply, val_main_v26_apply, val_main_cst_0_apply, val_main_v25_apply, val_main_v24_apply, val_main_cst_apply,
    val_main_v23_apply, val_main_v22_apply, sigmoid_eq,
    val_main_v40_apply, val_main_v39_apply, val_main_cst_4_apply, val_main_v38_apply, val_main_v37_apply, val_main_cst_3_apply,
    val_main_v36_apply, val_main_v35_apply, sigmoid_eq,
    val_main_v34_apply, val_main_v41_apply,
    val_main_v16_apply, val_main_v17_apply, val_main_v18_apply, val_main_v20_apply, val_main_v21_apply,
    slice16, slice17, slice18, slice20, slice21,
    gates_block, gates_block, gates_block, atts_block, atts_block]
  exact cellNext_of_forget_first _ _ _ _ _ _

/-- The reference's next cell state is `cyArr` of its arguments. -/
theorem cy_eq : val_main_v52 (F := Ideal) x0 x1 x2 x3 x4 x5 x6 x7 x8 x9 = cyArr x0 x1 x2 x3 x4 x5 x6 x7 x8 x9 := by
  funext i
  obtain ⟨r, j, rfl⟩ : ∃ (r : Fin 8192) (j : Fin 1024), i = ix2 r j := ⟨i 0, i 1, eq_ix2 i⟩
  exact cy_apply x0 x1 x2 x3 x4 x5 x6 x7 x8 x9 r j

/-- The reference's next hidden state is `hyArr` of its arguments. -/
theorem hy_eq : val_main_v54 (F := Ideal) x0 x1 x2 x3 x4 x5 x6 x7 x8 x9 = hyArr x0 x1 x2 x3 x4 x5 x6 x7 x8 x9 := by
  funext i
  obtain ⟨r, j, rfl⟩ : ∃ (r : Fin 8192) (j : Fin 1024), i = ix2 r j := ⟨i 0, i 1, eq_ix2 i⟩
  rw [val_main_v54_apply, val_main_v53_apply, cy_apply,
    val_main_v47_apply, val_main_v46_apply, val_main_cst_6_apply, val_main_v45_apply, val_main_v44_apply, val_main_cst_5_apply,
    val_main_v43_apply, val_main_v42_apply, sigmoid_eq, val_main_v19_apply, slice19, gates_block]
  rfl

end Cert.ReferenceIdeal.RefValue

end
-- ==== Proof.lean ====
/-
  An LSTM cell with an attention gate, one step over a batch of 8192 rows with 1024 features: the kernel against its
  plain reference, as functions on the extended reals.

  Both programs compute, for batch row r and hidden unit j, the four gates' pre-activations
      x_r · Wih[1024 g + j] + h_r · Whh[1024 g + j] + bih[1024 g + j] + bhh[1024 g + j]        (g = 0, 1, 2, 3)
  and the two attention gates'  a_r · Watt[1024 g + j] + batt[1024 g + j]  (g = 0, 1), and from them, with σ the
  logistic function,
      cy = σ(gate 0) · tanh(gate 2) + σ(gate 1) · cx + σ(att 0) · tanh(att 1),        hy = σ(gate 3) · tanh(cy).
  The kernel works on 256 batch rows at a time and takes each gate's weights as one [1024, 1024] slab of the re-laid
  stack, multiplied transposed; the reference multiplies by the whole transposed stacks and cuts the columns into the
  gates afterwards. The kernel's change of float format before the products is the identity on the extended reals, its
  logistic operation is the reference's 1 / (1 + exp(−y)) there, and a sum over the contracted axis is the same sum
  however it is tiled. What remains between the two is the ORDER of additions — the kernel adds both products of a gate
  before the biases, the reference the first bias before the second product; the kernel adds the forget term of cy
  second, the reference first — and addition of extended reals is commutative and associative, also at the
  infinities. So the precondition (finite inputs) is never opened.

  `Cell.lean` states the cell and the two result arrays `cyArr`, `hyArr` as functions of the ten argument arrays;
  `RefValue.lean` shows the reference's two results are these arrays; `KernelBlock.lean` reads the kernel body's two
  stored blocks entry by entry, and `KernelValue.lean` carries that from the 32 blocks to the arrays.
-/
import proofs.«148934_j32744830664921_1_alg».proof.Defs
import proofs.«148934_j32744830664921_1_alg».proof.Proof.Gen.Kernel
import proofs.«148934_j32744830664921_1_alg».proof.Proof.Gen.Kernel.Skeleton
import proofs.«148934_j32744830664921_1_alg».proof.Proof.Gen.Kernel.Launch
import proofs.«148934_j32744830664921_1_alg».proof.Proof.Gen.Kernel.Points
import proofs.«148934_j32744830664921_1_alg».proof.Proof.Gen.Kernel.Frame
import proofs.«148934_j32744830664921_1_alg».proof.Proof.Gen.KernelIdeal
import proofs.«148934_j32744830664921_1_alg».proof.Proof.Gen.KernelIdeal.Skeleton
import proofs.«148934_j32744830664921_1_alg».proof.Proof.Gen.KernelIdeal.Launch
import proofs.«148934_j32744830664921_1_alg».proof.Proof.Gen.KernelIdeal.Points
import proofs.«148934_j32744830664921_1_alg».proof.Proof.Gen.KernelIdeal.Frame
import proofs.«148934_j32744830664921_1_alg».proof.Proof.Gen.ReferenceIdeal
import proofs.«148934_j32744830664921_1_alg».proof.Proof.Gen.Pre_finite_inputs
import proofs.«148934_j32744830664921_1_alg».proof.Proof.Gen.KernelIdeal.Value
import proofs.«148934_j32744830664921_1_alg».proof.Proof.Gen.ReferenceIdeal.Run
import proofs.«148934_j32744830664921_1_alg».proof.Proof.Gen.ReferenceIdeal.Read
import proofs.«148934_j32744830664921_1_alg».proof.Proof.KernelValue
import proofs.«148934_j32744830664921_1_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing of the kernel was rewritten to read it on the extended reals. -/
theorem preserves : Cert.preserves_Kernel_KernelIdeal := trivial

/-- From memories that agree on the ten arguments, the kernel ends with `hyArr` and `cyArr` of its arguments and the
    reference with `hyArr` and `cyArr` of its own, which are the same arrays. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9⟩ := hagree c
    rw [Cert.ReferenceIdeal.Read.val_main_v54_eq, Cert.ReferenceIdeal.RefValue.hy_eq, a0, a1, a2, a3, a4, a5, a6, a7, a8, a9]
  · obtain ⟨a0, a1, a2, a3, a4, a5, a6, a7, a8, a9⟩ := hagree c
    rw [Cert.ReferenceIdeal.Read.val_main_v52_eq, Cert.ReferenceIdeal.RefValue.cy_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
